-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16384x2048 .f32) (main_arg1 : FVec F S2048x1024 .f32) (main_arg2 : FVec F S1024x1024 .f32) (main_arg3 : FVec F S1024 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16384x2048 : Shape := ⟨2, ![16384, 2048]⟩
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S16384x1024 : Shape := ⟨2, ![16384, 1024]⟩
abbrev S512x2048 : Shape := ⟨2, ![512, 2048]⟩
abbrev S512x1024 : Shape := ⟨2, ![512, 1024]⟩
abbrev S_ : Shape := ⟨0, ![]⟩
abbrev S16384x1024x1 : Shape := ⟨3, ![16384, 1024, 1]⟩
abbrev S16384x1024x2 : Shape := ⟨3, ![16384, 1024, 2]⟩
abbrev S16384x1x1 : Shape := ⟨3, ![16384, 1, 1]⟩
abbrev S16384x1x1x2 : Shape := ⟨4, ![16384, 1, 1, 2]⟩
abbrev S16384x1x2 : Shape := ⟨3, ![16384, 1, 2]⟩
abbrev S16384x2x1 : Shape := ⟨3, ![16384, 2, 1]⟩
abbrev S16384x2x1x2 : Shape := ⟨4, ![16384, 2, 1, 2]⟩
abbrev S16384x2x2 : Shape := ⟨3, ![16384, 2, 2]⟩
abbrev S16384x4x1 : Shape := ⟨3, ![16384, 4, 1]⟩
abbrev S16384x4x1x2 : Shape := ⟨4, ![16384, 4, 1, 2]⟩
abbrev S16384x4x2 : Shape := ⟨3, ![16384, 4, 2]⟩
abbrev S16384x8x1 : Shape := ⟨3, ![16384, 8, 1]⟩
abbrev S16384x8x1x2 : Shape := ⟨4, ![16384, 8, 1, 2]⟩
abbrev S16384x8x2 : Shape := ⟨3, ![16384, 8, 2]⟩
abbrev S16384x16x1 : Shape := ⟨3, ![16384, 16, 1]⟩
abbrev S16384x16x1x2 : Shape := ⟨4, ![16384, 16, 1, 2]⟩
abbrev S16384x16x2 : Shape := ⟨3, ![16384, 16, 2]⟩
abbrev S16384x32x1 : Shape := ⟨3, ![16384, 32, 1]⟩
abbrev S16384x32x1x2 : Shape := ⟨4, ![16384, 32, 1, 2]⟩
abbrev S16384x32x2 : Shape := ⟨3, ![16384, 32, 2]⟩
abbrev S16384x64x1 : Shape := ⟨3, ![16384, 64, 1]⟩
abbrev S16384x64x1x2 : Shape := ⟨4, ![16384, 64, 1, 2]⟩
abbrev S16384x64x2 : Shape := ⟨3, ![16384, 64, 2]⟩
abbrev S16384x128x1 : Shape := ⟨3, ![16384, 128, 1]⟩
abbrev S16384x128x1x2 : Shape := ⟨4, ![16384, 128, 1, 2]⟩
abbrev S16384x128x2 : Shape := ⟨3, ![16384, 128, 2]⟩
abbrev S16384x256x1 : Shape := ⟨3, ![16384, 256, 1]⟩
abbrev S16384x256x1x2 : Shape := ⟨4, ![16384, 256, 1, 2]⟩
abbrev S16384x256x2 : Shape := ⟨3, ![16384, 256, 2]⟩
abbrev S16384x512x1 : Shape := ⟨3, ![16384, 512, 1]⟩
abbrev S16384x512x1x2 : Shape := ⟨4, ![16384, 512, 1, 2]⟩
abbrev S16384x512x2 : Shape := ⟨3, ![16384, 512, 2]⟩

abbrev nBuf : Space → Nat
  | .hbm => 67
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S2048x1024, .bf16⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024x1, .f32⟩
  | .hbm, ⟨13, _⟩ => ⟨S16384x1024x1, .f32⟩
  | .hbm, ⟨14, _⟩ => ⟨S16384x1024x2, .f32⟩
  | .hbm, ⟨15, _⟩ => ⟨S_, .f32⟩
  | .hbm, ⟨16, _⟩ => ⟨S16384x1x1, .f32⟩
  | .hbm, ⟨17, _⟩ => ⟨S16384x1x1x2, .f32⟩
  | .hbm, ⟨18, _⟩ => ⟨S16384x1x2, .f32⟩
  | .hbm, ⟨19, _⟩ => ⟨S16384x1x2, .f32⟩
  | .hbm, ⟨20, _⟩ => ⟨S16384x1x2, .f32⟩
  | .hbm, ⟨21, _⟩ => ⟨S16384x2x1, .f32⟩
  | .hbm, ⟨22, _⟩ => ⟨S16384x2x1x2, .f32⟩
  | .hbm, ⟨23, _⟩ => ⟨S16384x2x2, .f32⟩
  | .hbm, ⟨24, _⟩ => ⟨S16384x2x2, .f32⟩
  | .hbm, ⟨25, _⟩ => ⟨S16384x2x2, .f32⟩
  | .hbm, ⟨26, _⟩ => ⟨S16384x4x1, .f32⟩
  | .hbm, ⟨27, _⟩ => ⟨S16384x4x1x2, .f32⟩
  | .hbm, ⟨28, _⟩ => ⟨S16384x4x2, .f32⟩
  | .hbm, ⟨29, _⟩ => ⟨S16384x4x2, .f32⟩
  | .hbm, ⟨30, _⟩ => ⟨S16384x4x2, .f32⟩
  | .hbm, ⟨31, _⟩ => ⟨S16384x8x1, .f32⟩
  | .hbm, ⟨32, _⟩ => ⟨S16384x8x1x2, .f32⟩
  | .hbm, ⟨33, _⟩ => ⟨S16384x8x2, .f32⟩
  | .hbm, ⟨34, _⟩ => ⟨S16384x8x2, .f32⟩
  | .hbm, ⟨35, _⟩ => ⟨S16384x8x2, .f32⟩
  | .hbm, ⟨36, _⟩ => ⟨S16384x16x1, .f32⟩
  | .hbm, ⟨37, _⟩ => ⟨S16384x16x1x2, .f32⟩
  | .hbm, ⟨38, _⟩ => ⟨S16384x16x2, .f32⟩
  | .hbm, ⟨39, _⟩ => ⟨S16384x16x2, .f32⟩
  | .hbm, ⟨40, _⟩ => ⟨S16384x16x2, .f32⟩
  | .hbm, ⟨41, _⟩ => ⟨S16384x32x1, .f32⟩
  | .hbm, ⟨42, _⟩ => ⟨S16384x32x1x2, .f32⟩
  | .hbm, ⟨43, _⟩ => ⟨S16384x32x2, .f32⟩
  | .hbm, ⟨44, _⟩ => ⟨S16384x32x2, .f32⟩
  | .hbm, ⟨45, _⟩ => ⟨S16384x32x2, .f32⟩
  | .hbm, ⟨46, _⟩ => ⟨S16384x64x1, .f32⟩
  | .hbm, ⟨47, _⟩ => ⟨S16384x64x1x2, .f32⟩
  | .hbm, ⟨48, _⟩ => ⟨S16384x64x2, .f32⟩
  | .hbm, ⟨49, _⟩ => ⟨S16384x64x2, .f32⟩
  | .hbm, ⟨50, _⟩ => ⟨S16384x64x2, .f32⟩
  | .hbm, ⟨51, _⟩ => ⟨S16384x128x1, .f32⟩
  | .hbm, ⟨52, _⟩ => ⟨S16384x128x1x2, .f32⟩
  | .hbm, ⟨53, _⟩ => ⟨S16384x128x2, .f32⟩
  | .hbm, ⟨54, _⟩ => ⟨S16384x128x2, .f32⟩
  | .hbm, ⟨55, _⟩ => ⟨S16384x128x2, .f32⟩
  | .hbm, ⟨56, _⟩ => ⟨S16384x256x1, .f32⟩
  | .hbm, ⟨57, _⟩ => ⟨S16384x256x1x2, .f32⟩
  | .hbm, ⟨58, _⟩ => ⟨S16384x256x2, .f32⟩
  | .hbm, ⟨59, _⟩ => ⟨S16384x256x2, .f32⟩
  | .hbm, ⟨60, _⟩ => ⟨S16384x256x2, .f32⟩
  | .hbm, ⟨61, _⟩ => ⟨S16384x512x1, .f32⟩
  | .hbm, ⟨62, _⟩ => ⟨S16384x512x1x2, .f32⟩
  | .hbm, ⟨63, _⟩ => ⟨S16384x512x2, .f32⟩
  | .hbm, ⟨64, _⟩ => ⟨S16384x512x2, .f32⟩
  | .hbm, ⟨65, _⟩ => ⟨S16384x512x2, .f32⟩
  | .hbm, ⟨66, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1024x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  bcast_S_S16384x1024 : S_.BroadcastsInDim S16384x1024 (![] : Fin 0 → Fin S16384x1024.rank)
  bcast_S16384x1024_S16384x1024x1_0_1 : S16384x1024.BroadcastsInDim S16384x1024x1 (![0, 1] : Fin 2 → Fin S16384x1024x1.rank)
  concatenates_S16384x1024x1_S16384x1024x1_S16384x1024x2_d2 : Shape.Concatenates [S16384x1024x1, S16384x1024x1] S16384x1024x2 2
  bcast_S_S16384x1x1 : S_.BroadcastsInDim S16384x1x1 (![] : Fin 0 → Fin S16384x1x1.rank)
  bcast_S16384x1x1_S16384x1x1x2_0_1_2 : S16384x1x1.BroadcastsInDim S16384x1x1x2 (![0, 1, 2] : Fin 3 → Fin S16384x1x1x2.rank)
  shapeCasts_S16384x1x1x2_S16384x1x2 : S16384x1x1x2.ShapeCasts S16384x1x2
  slices_S16384x1024x2_S16384x1x2_0_1_0 : S16384x1024x2.Slices ![0, 1, 0] S16384x1x2
  shapeCasts_S16384x1x2_S16384x2x1 : S16384x1x2.ShapeCasts S16384x2x1
  bcast_S16384x2x1_S16384x2x1x2_0_1_2 : S16384x2x1.BroadcastsInDim S16384x2x1x2 (![0, 1, 2] : Fin 3 → Fin S16384x2x1x2.rank)
  shapeCasts_S16384x2x1x2_S16384x2x2 : S16384x2x1x2.ShapeCasts S16384x2x2
  slices_S16384x1024x2_S16384x2x2_0_2_0 : S16384x1024x2.Slices ![0, 2, 0] S16384x2x2
  shapeCasts_S16384x2x2_S16384x4x1 : S16384x2x2.ShapeCasts S16384x4x1
  bcast_S16384x4x1_S16384x4x1x2_0_1_2 : S16384x4x1.BroadcastsInDim S16384x4x1x2 (![0, 1, 2] : Fin 3 → Fin S16384x4x1x2.rank)
  shapeCasts_S16384x4x1x2_S16384x4x2 : S16384x4x1x2.ShapeCasts S16384x4x2
  slices_S16384x1024x2_S16384x4x2_0_4_0 : S16384x1024x2.Slices ![0, 4, 0] S16384x4x2
  shapeCasts_S16384x4x2_S16384x8x1 : S16384x4x2.ShapeCasts S16384x8x1
  bcast_S16384x8x1_S16384x8x1x2_0_1_2 : S16384x8x1.BroadcastsInDim S16384x8x1x2 (![0, 1, 2] : Fin 3 → Fin S16384x8x1x2.rank)
  shapeCasts_S16384x8x1x2_S16384x8x2 : S16384x8x1x2.ShapeCasts S16384x8x2
  slices_S16384x1024x2_S16384x8x2_0_8_0 : S16384x1024x2.Slices ![0, 8, 0] S16384x8x2
  shapeCasts_S16384x8x2_S16384x16x1 : S16384x8x2.ShapeCasts S16384x16x1
  bcast_S16384x16x1_S16384x16x1x2_0_1_2 : S16384x16x1.BroadcastsInDim S16384x16x1x2 (![0, 1, 2] : Fin 3 → Fin S16384x16x1x2.rank)
  shapeCasts_S16384x16x1x2_S16384x16x2 : S16384x16x1x2.ShapeCasts S16384x16x2
  slices_S16384x1024x2_S16384x16x2_0_16_0 : S16384x1024x2.Slices ![0, 16, 0] S16384x16x2
  shapeCasts_S16384x16x2_S16384x32x1 : S16384x16x2.ShapeCasts S16384x32x1
  bcast_S16384x32x1_S16384x32x1x2_0_1_2 : S16384x32x1.BroadcastsInDim S16384x32x1x2 (![0, 1, 2] : Fin 3 → Fin S16384x32x1x2.rank)
  shapeCasts_S16384x32x1x2_S16384x32x2 : S16384x32x1x2.ShapeCasts S16384x32x2
  slices_S16384x1024x2_S16384x32x2_0_32_0 : S16384x1024x2.Slices ![0, 32, 0] S16384x32x2
  shapeCasts_S16384x32x2_S16384x64x1 : S16384x32x2.ShapeCasts S16384x64x1
  bcast_S16384x64x1_S16384x64x1x2_0_1_2 : S16384x64x1.BroadcastsInDim S16384x64x1x2 (![0, 1, 2] : Fin 3 → Fin S16384x64x1x2.rank)
  shapeCasts_S16384x64x1x2_S16384x64x2 : S16384x64x1x2.ShapeCasts S16384x64x2
  slices_S16384x1024x2_S16384x64x2_0_64_0 : S16384x1024x2.Slices ![0, 64, 0] S16384x64x2
  shapeCasts_S16384x64x2_S16384x128x1 : S16384x64x2.ShapeCasts S16384x128x1
  bcast_S16384x128x1_S16384x128x1x2_0_1_2 : S16384x128x1.BroadcastsInDim S16384x128x1x2 (![0, 1, 2] : Fin 3 → Fin S16384x128x1x2.rank)
  shapeCasts_S16384x128x1x2_S16384x128x2 : S16384x128x1x2.ShapeCasts S16384x128x2
  slices_S16384x1024x2_S16384x128x2_0_128_0 : S16384x1024x2.Slices ![0, 128, 0] S16384x128x2
  shapeCasts_S16384x128x2_S16384x256x1 : S16384x128x2.ShapeCasts S16384x256x1
  bcast_S16384x256x1_S16384x256x1x2_0_1_2 : S16384x256x1.BroadcastsInDim S16384x256x1x2 (![0, 1, 2] : Fin 3 → Fin S16384x256x1x2.rank)
  shapeCasts_S16384x256x1x2_S16384x256x2 : S16384x256x1x2.ShapeCasts S16384x256x2
  slices_S16384x1024x2_S16384x256x2_0_256_0 : S16384x1024x2.Slices ![0, 256, 0] S16384x256x2
  shapeCasts_S16384x256x2_S16384x512x1 : S16384x256x2.ShapeCasts S16384x512x1
  bcast_S16384x512x1_S16384x512x1x2_0_1_2 : S16384x512x1.BroadcastsInDim S16384x512x1x2 (![0, 1, 2] : Fin 3 → Fin S16384x512x1x2.rank)
  shapeCasts_S16384x512x1x2_S16384x512x2 : S16384x512x1x2.ShapeCasts S16384x512x2
  slices_S16384x1024x2_S16384x512x2_0_512_0 : S16384x1024x2.Slices ![0, 512, 0] S16384x512x2
  shapeCasts_S16384x512x2_S16384x1024 : S16384x512x2.ShapeCasts S16384x1024
  dot_S512x2048_S2048x1024_S512x1024_1_0_0_1_n_n_wf : DotDims.WF S512x2048 S2048x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1024 : Shape := ⟨2, ![2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S_ : Shape := ⟨0, ![]⟩
abbrev S16384x1024x1 : Shape := ⟨3, ![16384, 1024, 1]⟩
abbrev S16384x1024x2 : Shape := ⟨3, ![16384, 1024, 2]⟩
abbrev S16384x1x1 : Shape := ⟨3, ![16384, 1, 1]⟩
abbrev S16384x1x1x2 : Shape := ⟨4, ![16384, 1, 1, 2]⟩
abbrev S16384x1x2 : Shape := ⟨3, ![16384, 1, 2]⟩
abbrev S16384x2x1 : Shape := ⟨3, ![16384, 2, 1]⟩
abbrev S16384x2x1x2 : Shape := ⟨4, ![16384, 2, 1, 2]⟩
abbrev S16384x2x2 : Shape := ⟨3, ![16384, 2, 2]⟩
abbrev S16384x4x1 : Shape := ⟨3, ![16384, 4, 1]⟩
abbrev S16384x4x1x2 : Shape := ⟨4, ![16384, 4, 1, 2]⟩
abbrev S16384x4x2 : Shape := ⟨3, ![16384, 4, 2]⟩
abbrev S16384x8x1 : Shape := ⟨3, ![16384, 8, 1]⟩
abbrev S16384x8x1x2 : Shape := ⟨4, ![16384, 8, 1, 2]⟩
abbrev S16384x8x2 : Shape := ⟨3, ![16384, 8, 2]⟩
abbrev S16384x16x1 : Shape := ⟨3, ![16384, 16, 1]⟩
abbrev S16384x16x1x2 : Shape := ⟨4, ![16384, 16, 1, 2]⟩
abbrev S16384x16x2 : Shape := ⟨3, ![16384, 16, 2]⟩
abbrev S16384x32x1 : Shape := ⟨3, ![16384, 32, 1]⟩
abbrev S16384x32x1x2 : Shape := ⟨4, ![16384, 32, 1, 2]⟩
abbrev S16384x32x2 : Shape := ⟨3, ![16384, 32, 2]⟩
abbrev S16384x64x1 : Shape := ⟨3, ![16384, 64, 1]⟩
abbrev S16384x64x1x2 : Shape := ⟨4, ![16384, 64, 1, 2]⟩
abbrev S16384x64x2 : Shape := ⟨3, ![16384, 64, 2]⟩
abbrev S16384x128x1 : Shape := ⟨3, ![16384, 128, 1]⟩
abbrev S16384x128x1x2 : Shape := ⟨4, ![16384, 128, 1, 2]⟩
abbrev S16384x128x2 : Shape := ⟨3, ![16384, 128, 2]⟩
abbrev S16384x256x1 : Shape := ⟨3, ![16384, 256, 1]⟩
abbrev S16384x256x1x2 : Shape := ⟨4, ![16384, 256, 1, 2]⟩
abbrev S16384x256x2 : Shape := ⟨3, ![16384, 256, 2]⟩
abbrev S16384x512x1 : Shape := ⟨3, ![16384, 512, 1]⟩
abbrev S16384x512x1x2 : Shape := ⟨4, ![16384, 512, 1, 2]⟩
abbrev S16384x512x2 : Shape := ⟨3, ![16384, 512, 2]⟩

abbrev nBuf : Space → Nat
  | .hbm => 76
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024x1, .f32⟩
  | .hbm, ⟨22, _⟩ => ⟨S16384x1024x1, .f32⟩
  | .hbm, ⟨23, _⟩ => ⟨S16384x1024x2, .f32⟩
  | .hbm, ⟨24, _⟩ => ⟨S_, .f32⟩
  | .hbm, ⟨25, _⟩ => ⟨S16384x1x1, .f32⟩
  | .hbm, ⟨26, _⟩ => ⟨S16384x1x1x2, .f32⟩
  | .hbm, ⟨27, _⟩ => ⟨S16384x1x2, .f32⟩
  | .hbm, ⟨28, _⟩ => ⟨S16384x1x2, .f32⟩
  | .hbm, ⟨29, _⟩ => ⟨S16384x1x2, .f32⟩
  | .hbm, ⟨30, _⟩ => ⟨S16384x2x1, .f32⟩
  | .hbm, ⟨31, _⟩ => ⟨S16384x2x1x2, .f32⟩
  | .hbm, ⟨32, _⟩ => ⟨S16384x2x2, .f32⟩
  | .hbm, ⟨33, _⟩ => ⟨S16384x2x2, .f32⟩
  | .hbm, ⟨34, _⟩ => ⟨S16384x2x2, .f32⟩
  | .hbm, ⟨35, _⟩ => ⟨S16384x4x1, .f32⟩
  | .hbm, ⟨36, _⟩ => ⟨S16384x4x1x2, .f32⟩
  | .hbm, ⟨37, _⟩ => ⟨S16384x4x2, .f32⟩
  | .hbm, ⟨38, _⟩ => ⟨S16384x4x2, .f32⟩
  | .hbm, ⟨39, _⟩ => ⟨S16384x4x2, .f32⟩
  | .hbm, ⟨40, _⟩ => ⟨S16384x8x1, .f32⟩
  | .hbm, ⟨41, _⟩ => ⟨S16384x8x1x2, .f32⟩
  | .hbm, ⟨42, _⟩ => ⟨S16384x8x2, .f32⟩
  | .hbm, ⟨43, _⟩ => ⟨S16384x8x2, .f32⟩
  | .hbm, ⟨44, _⟩ => ⟨S16384x8x2, .f32⟩
  | .hbm, ⟨45, _⟩ => ⟨S16384x16x1, .f32⟩
  | .hbm, ⟨46, _⟩ => ⟨S16384x16x1x2, .f32⟩
  | .hbm, ⟨47, _⟩ => ⟨S16384x16x2, .f32⟩
  | .hbm, ⟨48, _⟩ => ⟨S16384x16x2, .f32⟩
  | .hbm, ⟨49, _⟩ => ⟨S16384x16x2, .f32⟩
  | .hbm, ⟨50, _⟩ => ⟨S16384x32x1, .f32⟩
  | .hbm, ⟨51, _⟩ => ⟨S16384x32x1x2, .f32⟩
  | .hbm, ⟨52, _⟩ => ⟨S16384x32x2, .f32⟩
  | .hbm, ⟨53, _⟩ => ⟨S16384x32x2, .f32⟩
  | .hbm, ⟨54, _⟩ => ⟨S16384x32x2, .f32⟩
  | .hbm, ⟨55, _⟩ => ⟨S16384x64x1, .f32⟩
  | .hbm, ⟨56, _⟩ => ⟨S16384x64x1x2, .f32⟩
  | .hbm, ⟨57, _⟩ => ⟨S16384x64x2, .f32⟩
  | .hbm, ⟨58, _⟩ => ⟨S16384x64x2, .f32⟩
  | .hbm, ⟨59, _⟩ => ⟨S16384x64x2, .f32⟩
  | .hbm, ⟨60, _⟩ => ⟨S16384x128x1, .f32⟩
  | .hbm, ⟨61, _⟩ => ⟨S16384x128x1x2, .f32⟩
  | .hbm, ⟨62, _⟩ => ⟨S16384x128x2, .f32⟩
  | .hbm, ⟨63, _⟩ => ⟨S16384x128x2, .f32⟩
  | .hbm, ⟨64, _⟩ => ⟨S16384x128x2, .f32⟩
  | .hbm, ⟨65, _⟩ => ⟨S16384x256x1, .f32⟩
  | .hbm, ⟨66, _⟩ => ⟨S16384x256x1x2, .f32⟩
  | .hbm, ⟨67, _⟩ => ⟨S16384x256x2, .f32⟩
  | .hbm, ⟨68, _⟩ => ⟨S16384x256x2, .f32⟩
  | .hbm, ⟨69, _⟩ => ⟨S16384x256x2, .f32⟩
  | .hbm, ⟨70, _⟩ => ⟨S16384x512x1, .f32⟩
  | .hbm, ⟨71, _⟩ => ⟨S16384x512x1x2, .f32⟩
  | .hbm, ⟨72, _⟩ => ⟨S16384x512x2, .f32⟩
  | .hbm, ⟨73, _⟩ => ⟨S16384x512x2, .f32⟩
  | .hbm, ⟨74, _⟩ => ⟨S16384x512x2, .f32⟩
  | .hbm, ⟨75, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S16384x1024_S16384x1024x1_0_1 : S16384x1024.BroadcastsInDim S16384x1024x1 (![0, 1] : Fin 2 → Fin S16384x1024x1.rank)
  concatenates_S16384x1024x1_S16384x1024x1_S16384x1024x2_d2 : Shape.Concatenates [S16384x1024x1, S16384x1024x1] S16384x1024x2 2
  bcast_S_S16384x1x1 : S_.BroadcastsInDim S16384x1x1 (![] : Fin 0 → Fin S16384x1x1.rank)
  bcast_S16384x1x1_S16384x1x1x2_0_1_2 : S16384x1x1.BroadcastsInDim S16384x1x1x2 (![0, 1, 2] : Fin 3 → Fin S16384x1x1x2.rank)
  shapeCasts_S16384x1x1x2_S16384x1x2 : S16384x1x1x2.ShapeCasts S16384x1x2
  slices_S16384x1024x2_S16384x1x2_0_1_0 : S16384x1024x2.Slices ![0, 1, 0] S16384x1x2
  shapeCasts_S16384x1x2_S16384x2x1 : S16384x1x2.ShapeCasts S16384x2x1
  bcast_S16384x2x1_S16384x2x1x2_0_1_2 : S16384x2x1.BroadcastsInDim S16384x2x1x2 (![0, 1, 2] : Fin 3 → Fin S16384x2x1x2.rank)
  shapeCasts_S16384x2x1x2_S16384x2x2 : S16384x2x1x2.ShapeCasts S16384x2x2
  slices_S16384x1024x2_S16384x2x2_0_2_0 : S16384x1024x2.Slices ![0, 2, 0] S16384x2x2
  shapeCasts_S16384x2x2_S16384x4x1 : S16384x2x2.ShapeCasts S16384x4x1
  bcast_S16384x4x1_S16384x4x1x2_0_1_2 : S16384x4x1.BroadcastsInDim S16384x4x1x2 (![0, 1, 2] : Fin 3 → Fin S16384x4x1x2.rank)
  shapeCasts_S16384x4x1x2_S16384x4x2 : S16384x4x1x2.ShapeCasts S16384x4x2
  slices_S16384x1024x2_S16384x4x2_0_4_0 : S16384x1024x2.Slices ![0, 4, 0] S16384x4x2
  shapeCasts_S16384x4x2_S16384x8x1 : S16384x4x2.ShapeCasts S16384x8x1
  bcast_S16384x8x1_S16384x8x1x2_0_1_2 : S16384x8x1.BroadcastsInDim S16384x8x1x2 (![0, 1, 2] : Fin 3 → Fin S16384x8x1x2.rank)
  shapeCasts_S16384x8x1x2_S16384x8x2 : S16384x8x1x2.ShapeCasts S16384x8x2
  slices_S16384x1024x2_S16384x8x2_0_8_0 : S16384x1024x2.Slices ![0, 8, 0] S16384x8x2
  shapeCasts_S16384x8x2_S16384x16x1 : S16384x8x2.ShapeCasts S16384x16x1
  bcast_S16384x16x1_S16384x16x1x2_0_1_2 : S16384x16x1.BroadcastsInDim S16384x16x1x2 (![0, 1, 2] : Fin 3 → Fin S16384x16x1x2.rank)
  shapeCasts_S16384x16x1x2_S16384x16x2 : S16384x16x1x2.ShapeCasts S16384x16x2
  slices_S16384x1024x2_S16384x16x2_0_16_0 : S16384x1024x2.Slices ![0, 16, 0] S16384x16x2
  shapeCasts_S16384x16x2_S16384x32x1 : S16384x16x2.ShapeCasts S16384x32x1
  bcast_S16384x32x1_S16384x32x1x2_0_1_2 : S16384x32x1.BroadcastsInDim S16384x32x1x2 (![0, 1, 2] : Fin 3 → Fin S16384x32x1x2.rank)
  shapeCasts_S16384x32x1x2_S16384x32x2 : S16384x32x1x2.ShapeCasts S16384x32x2
  slices_S16384x1024x2_S16384x32x2_0_32_0 : S16384x1024x2.Slices ![0, 32, 0] S16384x32x2
  shapeCasts_S16384x32x2_S16384x64x1 : S16384x32x2.ShapeCasts S16384x64x1
  bcast_S16384x64x1_S16384x64x1x2_0_1_2 : S16384x64x1.BroadcastsInDim S16384x64x1x2 (![0, 1, 2] : Fin 3 → Fin S16384x64x1x2.rank)
  shapeCasts_S16384x64x1x2_S16384x64x2 : S16384x64x1x2.ShapeCasts S16384x64x2
  slices_S16384x1024x2_S16384x64x2_0_64_0 : S16384x1024x2.Slices ![0, 64, 0] S16384x64x2
  shapeCasts_S16384x64x2_S16384x128x1 : S16384x64x2.ShapeCasts S16384x128x1
  bcast_S16384x128x1_S16384x128x1x2_0_1_2 : S16384x128x1.BroadcastsInDim S16384x128x1x2 (![0, 1, 2] : Fin 3 → Fin S16384x128x1x2.rank)
  shapeCasts_S16384x128x1x2_S16384x128x2 : S16384x128x1x2.ShapeCasts S16384x128x2
  slices_S16384x1024x2_S16384x128x2_0_128_0 : S16384x1024x2.Slices ![0, 128, 0] S16384x128x2
  shapeCasts_S16384x128x2_S16384x256x1 : S16384x128x2.ShapeCasts S16384x256x1
  bcast_S16384x256x1_S16384x256x1x2_0_1_2 : S16384x256x1.BroadcastsInDim S16384x256x1x2 (![0, 1, 2] : Fin 3 → Fin S16384x256x1x2.rank)
  shapeCasts_S16384x256x1x2_S16384x256x2 : S16384x256x1x2.ShapeCasts S16384x256x2
  slices_S16384x1024x2_S16384x256x2_0_256_0 : S16384x1024x2.Slices ![0, 256, 0] S16384x256x2
  shapeCasts_S16384x256x2_S16384x512x1 : S16384x256x2.ShapeCasts S16384x512x1
  bcast_S16384x512x1_S16384x512x1x2_0_1_2 : S16384x512x1.BroadcastsInDim S16384x512x1x2 (![0, 1, 2] : Fin 3 → Fin S16384x512x1x2.rank)
  shapeCasts_S16384x512x1x2_S16384x512x2 : S16384x512x1x2.ShapeCasts S16384x512x2
  slices_S16384x1024x2_S16384x512x2_0_512_0 : S16384x1024x2.Slices ![0, 512, 0] S16384x512x2
  shapeCasts_S16384x512x2_S16384x1024 : S16384x512x2.ShapeCasts S16384x1024
  dot_S16384x2048_S2048x1024_S16384x1024_1_0_0_1_n_n_wf : DotDims.WF S16384x2048 S2048x1024 S16384x1024 [1] [0] [0] [1] [] []
  dot_S16384x1024_S1024x1024_S16384x1024_1_0_0_1_n_n_wf : DotDims.WF S16384x1024 S1024x1024 S16384x1024 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelBlock.lean ====
/-
  What the kernel body computes from its four blocks, read at one entry.

  At a grid point the body holds a block of 512 samples `xb : [512, 2048]`, the whole selection matrix
  `sb : [2048, 1024]`, the whole transposed weight matrix `wb : [1024 features, 1024 nodes]` and the bias row
  `bb : [1, 1024]`. It forms `xb · sb` and then `(xb · sb) · wb` on the matrix unit, each into a zero accumulator,
  adds the bias row to every row and applies the logistic function. On the extended reals the narrowing to bf16
  before each product is the identity and a product into a zero accumulator is the plain sum over the contracted
  axis, so entry `(p, q)` of the block it stores is
  `logistic (∑ k, (∑ k₁, xb[p,k₁] · sb[k₁,k]) · wb[k,q] + bb[0,q])`.
-/
import proofs.«132945_j2963527434844_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.SoftTree.Kern

open Idealize.ShloMosaic Idealize.ShloMosaic.ValueIdx Cert.KernelIdeal Cert.KernelIdeal.Gen Cert.KernelIdeal.Facts₀

variable [Cert.KernelIdeal.Facts]

/-! ## The operand indices of the first product, samples times selection: rows × contracted axis, contracted axis × columns -/

theorem sel_lhs_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem sel_lhs_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem sel_rhs_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem sel_rhs_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-! ## The operand indices of the second product, selected features times node weights -/

theorem node_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem node_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem node_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem node_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## Each product into a zero accumulator is the sum over its contracted axis -/

/-- `xb · sb` at `(p, k)`: the sum over the 2048 input features. -/
theorem sel_product_apply (a : FVec Ideal S512x2048 .bf16) (b : FVec Ideal S2048x1024 .bf16) (p : Fin 512) (k : Fin 1024) :
    matmul dot_S512x2048_S2048x1024_S512x1024_1_0_0_1_n_n none a b (constant S512x1024 .f32 0x00000000#32) (ix2 p k)
      = ∑ k₁ : Fin 2048, a (ix2 p k₁) * b (ix2 k₁ k) := by
  simp only [matmul]
  rw [Ideal.matmul_constant_zero_apply, ← Equiv.sum_comp (ValueIdx.contrEquiv1 dot_S512x2048_S2048x1024_S512x1024_1_0_0_1_n_n 2048 rfl rfl).symm]
  refine Finset.sum_congr rfl fun k₁ _ => ?_
  have hk := ValueIdx.contrEquiv1_symm_val dot_S512x2048_S2048x1024_S512x1024_1_0_0_1_n_n 2048 rfl rfl k₁
  have el : dot_S512x2048_S2048x1024_S512x1024_1_0_0_1_n_n.lhsIdx (ix2 p k) ((ValueIdx.contrEquiv1 dot_S512x2048_S2048x1024_S512x1024_1_0_0_1_n_n 2048 rfl rfl).symm k₁) = ix2 p k₁ := funext fun a => Fin.ext (by
    match a with
    | ⟨0, _⟩ => exact sel_lhs_0 _ _
    | ⟨1, _⟩ => exact (sel_lhs_1 _ _).trans hk)
  have er : dot_S512x2048_S2048x1024_S512x1024_1_0_0_1_n_n.rhsIdx (ix2 p k) ((ValueIdx.contrEquiv1 dot_S512x2048_S2048x1024_S512x1024_1_0_0_1_n_n 2048 rfl rfl).symm k₁) = ix2 k₁ k := funext fun a => Fin.ext (by
    match a with
    | ⟨0, _⟩ => exact (sel_rhs_0 _ _).trans hk
    | ⟨1, _⟩ => exact sel_rhs_1 _ _)
  rw [el, er]

/-- `f · wb` at `(p, q)`: the sum over the 1024 selected features. -/
theorem node_product_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact node_lhs_0 _ _
    | ⟨1, _⟩ => exact (node_lhs_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (node_rhs_0 _ _).trans hk
    | ⟨1, _⟩ => exact node_rhs_1 _ _)
  rw [el, er]

/-! ## The stored block at an entry -/

/-- Entry `(p, q)` of what the body stores, from its four loaded blocks. -/
theorem stored_apply (xb : Vec Ideal S512x2048 .f32) (sb : Vec Ideal S2048x1024 .bf16) (wb : Vec Ideal S1024x1024 .bf16)
    (bb : Vec Ideal S1x1024 .f32) (p : Fin 512) (q : Fin 1024) :
    k0_pay1 (F := Ideal) xb sb wb bb (ix2 p q)
      = Ideal.logistic ((∑ k : Fin 1024, (∑ k₁ : Fin 2048, xb (ix2 p k₁) * sb (ix2 k₁ k)) * wb (ix2 k q)) + bb (ix2 (0 : Fin 1) q)) := by
  unfold k0_pay1
  refine congrArg Ideal.logistic ?_
  refine congrArg₂ (· + ·) ?_ ?_
  · -- the second product, over the first
    refine (node_product_apply _ _ p q).trans ?_
    refine Finset.sum_congr rfl fun k _ => ?_
    refine congrArg₂ (· * ·) ?_ ?_
    · refine (sel_product_apply _ _ p k).trans ?_
      refine Finset.sum_congr rfl fun k₁ _ => ?_
      exact congrArg (xb (ix2 p k₁) * ·) (congrFun (shapeCast_self sb _) (ix2 k₁ k))
    · exact congrFun (shapeCast_self wb _) (ix2 k q)
  · -- the bias row under every row
    exact (broadcastTo_1b_ab_apply _ _ p q).trans (congrFun (shapeCast_self bb _) (ix2 (0 : Fin 1) q))

end Cert.SoftTree.Kern

end
-- ==== Proof.Spec.lean ====
/-
  The mathematics of the soft decision tree, stated once over the argument arrays and with no program in sight.

  A sample `i` selects features `feats i k = ∑ k₁, x[i,k₁] · mask[k₁,k]`, every inner node `j` of the tree scores
  `logit i j = ∑ k, feats i k · W[j,k] + b[j]` and decides with the logistic function,
  `d[i,j] = 1 / (1 + e^(-logit i j))`.  Both programs compute exactly this array on the extended reals: a change
  of float format is the identity there, a matrix product is the plain sum of products whatever its tiling, and the
  logistic function IS the quotient `1 / (1 + e^(-z))` (with its conventions at the infinities), so neither side
  needs the inputs to be finite.  What follows `d` (the routing down the ten levels of the tree) is the same
  sequence of operations in both programs and is carried as one function of `d`.
-/
import Idealize.ShloMosaic.PureOps.Ideal
import Idealize.ShloMosaic.Lib.ValueIdx
import Idealize.ShloMosaic.Lib.IdealHost

noncomputable section

namespace Cert.SoftTree

open Idealize.ShloMosaic Idealize.ShloMosaic.ValueIdx

/-- The decision array over the arrays as a matrix-product unit is handed them: the samples `xs : [16384, 2048]`,
    the selection matrix `sel : [2048, 1024]`, the node weights already transposed `wt : [1024 features, 1024 nodes]`
    and the bias as a row `brow : [1, 1024]`. Entry `(i, j)` is the logistic function of
    `∑ k, (∑ k₁, xs[i,k₁] · sel[k₁,k]) · wt[k,j] + brow[0,j]`. -/
def decisionOfRows (xs : (⟨2, ![16384, 2048]⟩ : Shape).Idx → EReal) (sel : (⟨2, ![2048, 1024]⟩ : Shape).Idx → EReal)
    (wt : (⟨2, ![1024, 1024]⟩ : Shape).Idx → EReal) (brow : (⟨2, ![1, 1024]⟩ : Shape).Idx → EReal) :
    (⟨2, ![16384, 1024]⟩ : Shape).Idx → EReal := fun y =>
  Ideal.logistic ((∑ k : Fin 1024, (∑ k₁ : Fin 2048, xs (ix2 (y 0) k₁) * sel (ix2 k₁ k)) * wt (ix2 k (y 1)))
    + brow (ix2 (0 : Fin 1) (y 1)))

/-- The decision array over the arguments themselves: `W : [1024 nodes, 1024 features]` is read transposed and the
    bias vector `b : [1024]` as a row. -/
def decision (xs : (⟨2, ![16384, 2048]⟩ : Shape).Idx → EReal) (sel : (⟨2, ![2048, 1024]⟩ : Shape).Idx → EReal)
    (W : (⟨2, ![1024, 1024]⟩ : Shape).Idx → EReal) (b : (⟨1, ![1024]⟩ : Shape).Idx → EReal) :
    (⟨2, ![16384, 1024]⟩ : Shape).Idx → EReal :=
  decisionOfRows xs sel (fun q => W (ix2 (q 1) (q 0))) (fun q => b (ix1 (q 1)))

/-- jax spells the logistic function as the quotient `1 / (1 + e^(-z))` with both ones the f32 literal one: on the
    extended reals that quotient is the logistic function, at the infinities too. -/
theorem quotient_eq_logistic (z : EReal) :
    Ideal.div (Ideal.ofBits .f32 0x3F800000#32) (Ideal.ofBits .f32 0x3F800000#32 + Ideal.exp (-z)) = Ideal.logistic z := by
  rw [Ideal.ofBits_one_f32]
  rfl

end Cert.SoftTree

end
-- ==== Proof.KernelArray.lean ====
/-
  The array the kernel's region leaves: the decision array of the arguments.

  The region's five windows are the samples (blocks of 512 rows, one per grid point), the selection matrix, the
  transposed weights and the bias row (each one whole block, the same at every point) and the output (blocks of 512
  rows). Three host operations prepare the middle three: the selection matrix narrowed to bf16 (the identity on the
  extended reals), the weights transposed and narrowed, the bias re-read as a row. Point `t` stores, at entry
  `(p, q)` of its output block, the logistic function of the double sum over row `512 t + p` of the samples; the
  32 output blocks tile the `[16384, 1024]` array, so after the region the array holds the decision array.
-/
import proofs.«132945_j2963527434844_1_alg».proof.Proof.Gen.KernelIdeal.Frame
import proofs.«132945_j2963527434844_1_alg».proof.Proof.KernelBlock
import proofs.«132945_j2963527434844_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.SoftTree.Kern

open Idealize.ShloMosaic Idealize.ShloMosaic.ValueIdx Idealize.ShloMosaic.TcCoe Idealize.SL.Sem Cert.KernelIdeal Cert.KernelIdeal.Gen
open Idealize.ShloMosaic.Pipeline (Dat)

variable [Cert.KernelIdeal.Facts]
variable (m : (ℓ : Loc nD τ sig) → Buf (Elt Ideal) ℓ)

/-! ## The three arrays the host prepares, read at an entry -/

/-- The selection matrix as the region finds it is the argument, entry by entry (narrowing is the identity). -/
theorem sel_entry (c : Dev nD) (y : S2048x1024.Idx) :
    V m c main_v0 y = m ((c : Thread nD τ).loc main_arg1) y := by
  have e : (V m c main_v0 : S2048x1024.Idx → EReal)
      = truncf (F := Ideal) .bf16 (m ((c : Thread nD τ).loc main_arg1)) bitsLt_bf16_f32 := by
    show StableHlo.after hostOps0 (fun b => m (c, b)) (Proc.devRef .tc main_v0) = _
    after_results
  exact congrFun e y

/-- The weights as the region finds them are the argument transposed: feature `k`, node `j` reads `W[j, k]`. -/
theorem wt_entry (c : Dev nD) (k j : Fin 1024) :
    V m c main_v2 (ix2 k j) = m ((c : Thread nD τ).loc main_arg2) (ix2 j k) := by
  have e : (V m c main_v2 : S1024x1024.Idx → EReal)
      = truncf (F := Ideal) .bf16 (transpose S1024x1024 [1, 0] (m ((c : Thread nD τ).loc main_arg2)) transposes_S1024x1024_S1024x1024_1_0) bitsLt_bf16_f32 := by
    show StableHlo.after hostOps0 (fun b => m (c, b)) (Proc.devRef .tc main_v2) = _
    after_results
  exact (congrFun e (ix2 k j)).trans (transpose_ix2_apply _ _ k j)

/-- The bias row as the region finds it: column `j` of the one row reads `b[j]`. -/
theorem brow_entry (c : Dev nD) (u : Fin 1) (j : Fin 1024) :
    V m c main_v3 (ix2 u j) = m ((c : Thread nD τ).loc main_arg3) (ix1 j) := by
  have e : (V m c main_v3 : S1x1024.Idx → EReal)
      = shapeCast S1x1024 (m ((c : Thread nD τ).loc main_arg3)) shapeCasts_S1024_S1x1024 := by
    show StableHlo.after hostOps0 (fun b => m (c, b)) (Proc.devRef .tc main_v3) = _
    after_results
    rfl
  exact (congrFun e (ix2 u j)).trans (shapeCast_a_1a_apply _ _ u j)

/-! ## A stored block against the whole arrays -/

/-- If a block of samples `xb` is rows of `X` starting at the row of array entry `i`, and the other three blocks are
    the whole arrays, then what the body stores at block entry `y` is the decision array over those arrays at `i`. -/
theorem stored_eq_rows (X : S16384x2048.Idx → EReal) (S : S2048x1024.Idx → EReal) (Wt : S1024x1024.Idx → EReal)
    (B : S1x1024.Idx → EReal) (xb : Vec Ideal S512x2048 .f32) (sb : Vec Ideal S2048x1024 .bf16)
    (wb : Vec Ideal S1024x1024 .bf16) (bb : Vec Ideal S1x1024 .f32) (y : S512x1024.Idx) (i : S16384x1024.Idx)
    (hx : ∀ k₁ : Fin 2048, xb (ix2 (y 0) k₁) = X (ix2 (i 0) k₁))
    (hs : ∀ (k₁ : Fin 2048) (k : Fin 1024), sb (ix2 k₁ k) = S (ix2 k₁ k))
    (hw : ∀ k : Fin 1024, wb (ix2 k (y 1)) = Wt (ix2 k (i 1)))
    (hb : bb (ix2 (0 : Fin 1) (y 1)) = B (ix2 (0 : Fin 1) (i 1))) :
    k0_pay1 (F := Ideal) xb sb wb bb y = Cert.SoftTree.decisionOfRows X S Wt B i := by
  obtain ⟨p, q, rfl⟩ : ∃ (p : Fin 512) (q : Fin 1024), y = ix2 p q := ⟨y 0, y 1, eq_ix2 y⟩
  obtain ⟨i0, i1, rfl⟩ : ∃ (i0 : Fin 16384) (i1 : Fin 1024), i = ix2 i0 i1 := ⟨i 0, i 1, eq_ix2 i⟩
  have hx' : ∀ k₁ : Fin 2048, xb (ix2 p k₁) = X (ix2 i0 k₁) := hx
  have hw' : ∀ k : Fin 1024, wb (ix2 k q) = Wt (ix2 k i1) := hw
  have hb' : bb (ix2 (0 : Fin 1) q) = B (ix2 (0 : Fin 1) i1) := hb
  rw [stored_apply]
  simp only [hx', hs, hw', hb']
  rfl

/-! ## What a grid point writes back -/

/-- The decision array over the arrays as the region finds them. -/
abbrev rowsDecision (c : Dev nD) : S16384x1024.Idx → EReal :=
  Cert.SoftTree.decisionOfRows (V m c main_arg0) (V m c main_v0) (V m c main_v2) (V m c main_v3)

theorem origin : (![0, 0] : Fin 2 → Nat) = fun _ => 0 := funext fun a => by fin_cases a <;> rfl

/-- The printed index maps over the grid: the samples' block moves with the output's along the rows, point `t` at
    block row `t`; every other block index is zero. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 31 ∧ win0_4.index t (1 : Fin 2) = 0 :=
  (by decide +kernel : ∀ t : Fin grid0.N, _)

/-- Every block row of the output is some point's. -/
theorem idx_onto : ∀ r : Fin 32, ∃ t : Fin cfg0.N, win0_4.index t = ![r.val, 0] :=
  (by decide +kernel : ∀ r : Fin 32, ∃ t : Fin grid0.N, win0_4.index t = ![r.val, 0])

/-- Point `t` writes back block `t` of the decision array. -/
theorem flushed_eq (c : Dev nD) (t : Fin cfg0.N) :
    (dats m 0 c).flushed 4 t = ((cfg0.win 4).blk t).view.read (Elt Ideal) (rowsDecision m c) := by
  show (cfg0.win 4).cut (grid0.coords t) ((dats m 0 c).after 4 t) = _
  rw [after0_4]
  unfold out0_4
  rw [View.canon_unit_zero origin]
  simp only [View.ld_unit_zero (S := S512x2048) origin, View.ld_unit_zero (S := S2048x1024) origin,
    View.ld_unit_zero (S := S1024x1024) origin, View.ld_unit_zero (S := S1x1024) origin]
  obtain ⟨e00, e01, e10, e11, e20, e21, e30, e31, -, e41⟩ := idx_facts t
  refine funext fun (y : S512x1024.Idx) => ?_
  refine stored_eq_rows (V m c main_arg0) (V m c main_v0) (V m c main_v2) (V m c main_v3)
    (iblk m c 0 t) (iblk m c 1 t) (iblk m c 2 t) (iblk m c 3 t) y (((cfg0.win 4).blk t).view.emb y)
    (fun k₁ => ?_) (fun k₁ k => ?_) (fun k => ?_) ?_
  · show V m c main_arg0 (((cfg0.win 0).blk t).view.emb (ix2 (y 0) k₁)) = _
    refine congrArg (V m c main_arg0) (funext fun a => Fin.ext ?_)
    match a with
    | ⟨0, _⟩ => show win0_0.index t (0 : Fin 2) * 512 + 1 * (y 0).val = win0_4.index t (0 : Fin 2) * 512 + 1 * (y 0).val; omega
    | ⟨1, _⟩ => show win0_0.index t (1 : Fin 2) * 2048 + 1 * k₁.val = k₁.val; omega
  · show V m c main_v0 (((cfg0.win 1).blk t).view.emb (ix2 k₁ k)) = _
    refine congrArg (V m c main_v0) (funext fun a => Fin.ext ?_)
    match a with
    | ⟨0, _⟩ => show win0_1.index t (0 : Fin 2) * 2048 + 1 * k₁.val = k₁.val; omega
    | ⟨1, _⟩ => show win0_1.index t (1 : Fin 2) * 1024 + 1 * k.val = k.val; omega
  · show V m c main_v2 (((cfg0.win 2).blk t).view.emb (ix2 k (y 1))) = _
    refine congrArg (V m c main_v2) (funext fun a => Fin.ext ?_)
    match a with
    | ⟨0, _⟩ => show win0_2.index t (0 : Fin 2) * 1024 + 1 * k.val = k.val; omega
    | ⟨1, _⟩ => show win0_2.index t (1 : Fin 2) * 1024 + 1 * (y 1).val = win0_4.index t (1 : Fin 2) * 1024 + 1 * (y 1).val; omega
  · show V m c main_v3 (((cfg0.win 3).blk t).view.emb (ix2 (0 : Fin 1) (y 1))) = _
    refine congrArg (V m c main_v3) (funext fun a => Fin.ext ?_)
    match a with
    | ⟨0, _⟩ => show win0_3.index t (0 : Fin 2) * 1 + 1 * 0 = 0; omega
    | ⟨1, _⟩ => show win0_3.index t (1 : Fin 2) * 1024 + 1 * (y 1).val = win0_4.index t (1 : Fin 2) * 1024 + 1 * (y 1).val; omega

/-! ## The blocks tile the array -/

/-- An entry of the array is in point `t`'s block iff each coordinate is in the block's range on its axis. -/
theorem mem_blk (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4).slice (win0_4.rect t)).set ↔ _
  rw [View.set_slice_whole, Rect.mem_set_unit]
  exact Iff.rfl

/-- Row `r` of the array lies in the block of block row `r / 512`. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-! ## The array after the region -/

/-- After every write-back the output array holds the decision array over the arrays as the region found them, -/
theorem array_eq_rows (c : Dev nD) : (dats m 0 c).arrAt 4 cfg0.N = rowsDecision m c :=
  (dats m 0 c).arrAt_eq_of_cover 4 (rowsDecision m c) (fun t _ => flushed_eq m c t) covered

/-- which is the decision array of the arguments. -/
theorem rows_eq_decision (c : Dev nD) :
    rowsDecision m c = Cert.SoftTree.decision (m ((c : Thread nD τ).loc main_arg0)) (m ((c : Thread nD τ).loc main_arg1))
      (m ((c : Thread nD τ).loc main_arg2)) (m ((c : Thread nD τ).loc main_arg3)) := by
  have h0 : (V m c main_arg0 : S16384x2048.Idx → EReal) = m ((c : Thread nD τ).loc main_arg0) := V_main_arg0 m c
  have h1 : (V m c main_v0 : S2048x1024.Idx → EReal) = m ((c : Thread nD τ).loc main_arg1) := funext (sel_entry m c)
  have h2 : (V m c main_v2 : S1024x1024.Idx → EReal) = fun q => m ((c : Thread nD τ).loc main_arg2) (ix2 (q 1) (q 0)) :=
    funext fun q => by
      obtain ⟨k, j, rfl⟩ : ∃ (k j : Fin 1024), q = ix2 k j := ⟨q 0, q 1, eq_ix2 q⟩
      exact wt_entry m c k j
  have h3 : (V m c main_v3 : S1x1024.Idx → EReal) = fun q => m ((c : Thread nD τ).loc main_arg3) (ix1 (q 1)) :=
    funext fun q => by
      obtain ⟨u, j, rfl⟩ : ∃ (u : Fin 1) (j : Fin 1024), q = ix2 u j := ⟨q 0, q 1, eq_ix2 q⟩
      exact brow_entry m c u j
  show Cert.SoftTree.decisionOfRows (V m c main_arg0) (V m c main_v0) (V m c main_v2) (V m c main_v3)
    = Cert.SoftTree.decisionOfRows _ _ _ _
  rw [h0, h1, h2, h3]
  rfl

theorem array_eq_decision (c : Dev nD) :
    (dats m 0 c).arrAt 4 cfg0.N = Cert.SoftTree.decision (m ((c : Thread nD τ).loc main_arg0)) (m ((c : Thread nD τ).loc main_arg1))
      (m ((c : Thread nD τ).loc main_arg2)) (m ((c : Thread nD τ).loc main_arg3)) :=
  (array_eq_rows m c).trans (rows_eq_decision m c)

end Cert.SoftTree.Kern

end
-- ==== Proof.Routing.lean ====
/-
  The routing down the tree, as ONE function of the decision array `d : [16384, 1024]`.

  Both programs finish with the same operations on `d`. The pair `(d, 1 - d)` is laid side by side on a new last
  axis, `dd[i, j, 0] = d[i, j]`, `dd[i, j, 1] = 1 - d[i, j]`. A path probability `mu` starts as the constant one of
  shape `[16384, 1, 2]`; at level `n` (width `w = 2 ^ n`) it is multiplied entry by entry with the slice
  `dd[:, w : 2 w, :]`, the product `[16384, w, 2]` is re-read as `[16384, 2 w, 1]` and repeated along the last axis to
  `[16384, 2 w, 2]` for the next level. After level nine the product `[16384, 512, 2]` is re-read as the
  `[16384, 1024]` array of leaf probabilities.

  Nothing below opens this function: each program's result is shown to be `routing` of its own decision array, and
  the two decision arrays are shown equal.
-/
import proofs.«132945_j2963527434844_1_alg».proof.KernelIdeal

noncomputable section

namespace Cert.SoftTree

open Idealize.ShloMosaic Cert.KernelIdeal Cert.KernelIdeal.Facts₀

variable {F : FTy → Type} [FloatOps F] [Cert.KernelIdeal.Facts]

/-- The leaf probabilities from the decision array: ten levels of "multiply by the level's slice of `(d, 1 - d)`,
    then split every path in two". -/
def routing (d : FVec F S16384x1024 .f32) : FVec F S16384x1024 .f32 :=
  -- the pair (d, 1 - d) on a new last axis
  have dd : FVec F S16384x1024x2 .f32 :=
    concatenate S16384x1024x2 2
      [⟨S16384x1024x1, (broadcastInDim S16384x1024x1 ![0, 1] bcast_S16384x1024_S16384x1024x1_0_1 d)⟩,
       ⟨S16384x1024x1, (broadcastInDim S16384x1024x1 ![0, 1] bcast_S16384x1024_S16384x1024x1_0_1
          (subf (broadcastInDim S16384x1024 ![] bcast_S_S16384x1024 (constant S_ .f32 0x3F800000#32)) d))⟩]
      concatenates_S16384x1024x1_S16384x1024x1_S16384x1024x2_d2
  -- level 0: the constant one, times node 1
  have p0 : FVec F S16384x1x2 .f32 :=
    mulf (shapeCast _ (broadcastInDim S16384x1x1x2 ![0, 1, 2] bcast_S16384x1x1_S16384x1x1x2_0_1_2
        (broadcastInDim S16384x1x1 ![] bcast_S_S16384x1x1 (constant S_ .f32 0x3F800000#32))) shapeCasts_S16384x1x1x2_S16384x1x2)
      (extractStridedSlice S16384x1x2 ![0, 1, 0] dd slices_S16384x1024x2_S16384x1x2_0_1_0)
  -- level 1: nodes 2, 3
  have p1 : FVec F S16384x2x2 .f32 :=
    mulf (shapeCast _ (broadcastInDim S16384x2x1x2 ![0, 1, 2] bcast_S16384x2x1_S16384x2x1x2_0_1_2
        (shapeCast _ p0 shapeCasts_S16384x1x2_S16384x2x1)) shapeCasts_S16384x2x1x2_S16384x2x2)
      (extractStridedSlice S16384x2x2 ![0, 2, 0] dd slices_S16384x1024x2_S16384x2x2_0_2_0)
  -- level 2: nodes 4 … 7
  have p2 : FVec F S16384x4x2 .f32 :=
    mulf (shapeCast _ (broadcastInDim S16384x4x1x2 ![0, 1, 2] bcast_S16384x4x1_S16384x4x1x2_0_1_2
        (shapeCast _ p1 shapeCasts_S16384x2x2_S16384x4x1)) shapeCasts_S16384x4x1x2_S16384x4x2)
      (extractStridedSlice S16384x4x2 ![0, 4, 0] dd slices_S16384x1024x2_S16384x4x2_0_4_0)
  -- level 3: nodes 8 … 15
  have p3 : FVec F S16384x8x2 .f32 :=
    mulf (shapeCast _ (broadcastInDim S16384x8x1x2 ![0, 1, 2] bcast_S16384x8x1_S16384x8x1x2_0_1_2
        (shapeCast _ p2 shapeCasts_S16384x4x2_S16384x8x1)) shapeCasts_S16384x8x1x2_S16384x8x2)
      (extractStridedSlice S16384x8x2 ![0, 8, 0] dd slices_S16384x1024x2_S16384x8x2_0_8_0)
  -- level 4: nodes 16 … 31
  have p4 : FVec F S16384x16x2 .f32 :=
    mulf (shapeCast _ (broadcastInDim S16384x16x1x2 ![0, 1, 2] bcast_S16384x16x1_S16384x16x1x2_0_1_2
        (shapeCast _ p3 shapeCasts_S16384x8x2_S16384x16x1)) shapeCasts_S16384x16x1x2_S16384x16x2)
      (extractStridedSlice S16384x16x2 ![0, 16, 0] dd slices_S16384x1024x2_S16384x16x2_0_16_0)
  -- level 5: nodes 32 … 63
  have p5 : FVec F S16384x32x2 .f32 :=
    mulf (shapeCast _ (broadcastInDim S16384x32x1x2 ![0, 1, 2] bcast_S16384x32x1_S16384x32x1x2_0_1_2
        (shapeCast _ p4 shapeCasts_S16384x16x2_S16384x32x1)) shapeCasts_S16384x32x1x2_S16384x32x2)
      (extractStridedSlice S16384x32x2 ![0, 32, 0] dd slices_S16384x1024x2_S16384x32x2_0_32_0)
  -- level 6: nodes 64 … 127
  have p6 : FVec F S16384x64x2 .f32 :=
    mulf (shapeCast _ (broadcastInDim S16384x64x1x2 ![0, 1, 2] bcast_S16384x64x1_S16384x64x1x2_0_1_2
        (shapeCast _ p5 shapeCasts_S16384x32x2_S16384x64x1)) shapeCasts_S16384x64x1x2_S16384x64x2)
      (extractStridedSlice S16384x64x2 ![0, 64, 0] dd slices_S16384x1024x2_S16384x64x2_0_64_0)
  -- level 7: nodes 128 … 255
  have p7 : FVec F S16384x128x2 .f32 :=
    mulf (shapeCast _ (broadcastInDim S16384x128x1x2 ![0, 1, 2] bcast_S16384x128x1_S16384x128x1x2_0_1_2
        (shapeCast _ p6 shapeCasts_S16384x64x2_S16384x128x1)) shapeCasts_S16384x128x1x2_S16384x128x2)
      (extractStridedSlice S16384x128x2 ![0, 128, 0] dd slices_S16384x1024x2_S16384x128x2_0_128_0)
  -- level 8: nodes 256 … 511
  have p8 : FVec F S16384x256x2 .f32 :=
    mulf (shapeCast _ (broadcastInDim S16384x256x1x2 ![0, 1, 2] bcast_S16384x256x1_S16384x256x1x2_0_1_2
        (shapeCast _ p7 shapeCasts_S16384x128x2_S16384x256x1)) shapeCasts_S16384x256x1x2_S16384x256x2)
      (extractStridedSlice S16384x256x2 ![0, 256, 0] dd slices_S16384x1024x2_S16384x256x2_0_256_0)
  -- level 9: nodes 512 … 1023
  have p9 : FVec F S16384x512x2 .f32 :=
    mulf (shapeCast _ (broadcastInDim S16384x512x1x2 ![0, 1, 2] bcast_S16384x512x1_S16384x512x1x2_0_1_2
        (shapeCast _ p8 shapeCasts_S16384x256x2_S16384x512x1)) shapeCasts_S16384x512x1x2_S16384x512x2)
      (extractStridedSlice S16384x512x2 ![0, 512, 0] dd slices_S16384x1024x2_S16384x512x2_0_512_0)
  -- the leaves
  shapeCast _ p9 shapeCasts_S16384x512x2_S16384x1024

end Cert.SoftTree

end
-- ==== Proof.KernelRun.lean ====
/-
  The kernel program's run, with its result named.

  The generated frame run ends with the region's output array at what its 32 write-backs left, which is the decision
  array of the arguments, and with every other buffer at what the host operations after the region leave there. Those
  operations, run on the region's array, are the routing; so the program's result is `routing (decision x mask W b)`,
  and its four arguments end as they began.
-/
import proofs.«132945_j2963527434844_1_alg».proof.Proof.Gen.KernelIdeal.Frame
import proofs.«132945_j2963527434844_1_alg».proof.Proof.KernelArray
import proofs.«132945_j2963527434844_1_alg».proof.Proof.Routing
import Idealize.ShloMosaic.Lib.StableHlo.Run

set_option maxRecDepth 16384

noncomputable section

namespace Cert.SoftTree.Kern

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

set_option maxHeartbeats 8000000 in
/-- The host operations after the region, read back at the result buffer: the routing of whatever the region's
    output array holds. -/
theorem tail_eq_routing (c : Dev nD) :
    Pipeline.afterTail₀ cfgs (dats m) 0 (V0 m) [hostOps1] c main_v60
      = Cert.SoftTree.routing (F := Ideal)
          (Pipeline.withArrays (cfgs 0).spec c (V0 m c) (fun w => (dats m 0 c).arrAt w (cfgs 0).N) (Proc.devRef .tc main_v4)) := by
  unfold Pipeline.afterTail₀
  show StableHlo.after hostOps1 _ (Proc.devRef .tc main_v60) = _
  after_results_simp
  rfl

/-- The region's output array, as the later operations find it, is the decision array of the arguments. -/
theorem region_array (c : Dev nD) :
    Pipeline.withArrays (cfgs 0).spec c (V0 m c) (fun w => (dats m 0 c).arrAt w (cfgs 0).N) (Proc.devRef .tc main_v4)
      = Cert.SoftTree.decision (m ((c : Thread nD τ).loc main_arg0)) (m ((c : Thread nD τ).loc main_arg1))
          (m ((c : Thread nD τ).loc main_arg2)) (m ((c : Thread nD τ).loc main_arg3)) :=
  (Pipeline.withArrays_arr spec0 launch0.win.arr_inj c _ _ 4).trans (array_eq_decision m c)

/-- The program's result buffer after the run. -/
theorem result_eq (c : Dev nD) :
    Pipeline.afterTail₀ cfgs (dats m) 0 (V0 m) [hostOps1] c main_v60
      = Cert.SoftTree.routing (F := Ideal) (Cert.SoftTree.decision (m ((c : Thread nD τ).loc main_arg0))
          (m ((c : Thread nD τ).loc main_arg1)) (m ((c : Thread nD τ).loc main_arg2)) (m ((c : Thread nD τ).loc main_arg3))) :=
  (tail_eq_routing m c).trans (congrArg (Cert.SoftTree.routing (F := Ideal)) (region_array m c))

/-- Every weakly fair execution of the kernel program terminates with its result at the routing of the decision array
    of the arguments, and the arguments unchanged. -/
theorem run : θ_run defs (onTc (τ := τ) (main (F := Ideal))) ⟨m, fun _ => 0, ρ⟩ fun r => ∀ c : Dev nD,
      r.2.mem ((c.tc : Thread nD τ).loc main_v60)
        = Cert.SoftTree.routing (F := Ideal) (Cert.SoftTree.decision (m ((c : Thread nD τ).loc main_arg0))
            (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v60 (Pipeline.mem_restRefs_of main_v60 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.SoftTree.Kern

end
-- ==== Proof.RefDecision.lean ====
/-
  The reference's decision array is the specification's.

  The reference computes `x · mask`, then `(x · mask) · Wᵀ` by two whole matrix products, adds the bias laid along
  the rows, and applies jax's spelling of the logistic function, `1 / (1 + e^(-z))`. Read at an entry `(i, j)` each
  matrix product is the sum over its contracted axis, the transposition swaps the two coordinates of `W`, the two
  broadcasts of the bias read `b[j]`, and the quotient is the logistic function on the extended reals. So entry
  `(i, j)` is `logistic (∑ k, (∑ k₁, x[i,k₁] · mask[k₁,k]) · W[j,k] + b[j])`.
-/
import proofs.«132945_j2963527434844_1_alg».proof.Proof.Gen.ReferenceIdeal.Read
import proofs.«132945_j2963527434844_1_alg».proof.Proof.Spec

noncomputable section

namespace Cert.SoftTree.Ref

open Idealize.ShloMosaic Idealize.ShloMosaic.ValueIdx Cert.ReferenceIdeal Cert.ReferenceIdeal.Read

variable [Cert.ReferenceIdeal.Facts]

/-- The stage that holds the reference's decision probabilities, entry by entry, is `decision` of the arguments. -/
theorem decision_eq (x0 : FVec Ideal S16384x2048 .f32) (x1 : FVec Ideal S2048x1024 .f32) (x2 : FVec Ideal S1024x1024 .f32)
    (x3 : FVec Ideal S1024 .f32) :
    val_main_v11 (F := Ideal) x0 x1 x2 x3 = Cert.SoftTree.decision x0 x1 x2 x3 := by
  funext i
  rw [val_main_v11_apply, val_main_v10_apply, val_main_cst_0_apply, val_main_v9_apply, val_main_v8_apply, val_main_cst_apply,
    val_main_v7_apply, val_main_v6_apply, val_main_v5_apply, val_main_v2_apply, val_main_v4_apply, val_main_v3_apply]
  simp only [val_main_v0_apply, val_main_v1_apply]
  -- the composed index functions are the plain coordinates
  have e0 : ∀ (k : Fin 1024) (k₁ : Fin 2048), lidx_main_v0 (lidx_main_v2 i k) k₁ = ix2 (i 0) k₁ := fun k k₁ =>
    funext fun a => Fin.ext (by match a with | ⟨0, _⟩ => rfl | ⟨1, _⟩ => rfl)
  have e1 : ∀ (k : Fin 1024) (k₁ : Fin 2048), ridx_main_v0 (lidx_main_v2 i k) k₁ = ix2 k₁ k := fun k k₁ =>
    funext fun a => Fin.ext (by match a with | ⟨0, _⟩ => rfl | ⟨1, _⟩ => rfl)
  have e2 : ∀ k : Fin 1024, idx_main_v1 (ridx_main_v2 i k) = ix2 (i 1) k := fun k =>
    funext fun a => Fin.ext (by match a with | ⟨0, _⟩ => rfl | ⟨1, _⟩ => rfl)
  have e3 : idx_main_v3 (idx_main_v4 i) = ix1 (i 1) :=
    funext fun a => Fin.ext (by match a with | ⟨0, _⟩ => rfl)
  simp only [e0, e1, e2, e3]
  exact Cert.SoftTree.quotient_eq_logistic _

end Cert.SoftTree.Ref

end
-- ==== Proof.RefRouting.lean ====
/-
  The reference's result is the routing of its decision array.

  After the stage that holds the decision probabilities the reference runs exactly the operations `routing` is made
  of, on that stage: the equation is the definitions of the later stages unfolded, nothing is computed.
-/
import proofs.«132945_j2963527434844_1_alg».proof.Proof.Gen.ReferenceIdeal.Read
import proofs.«132945_j2963527434844_1_alg».proof.Proof.Routing

noncomputable section

namespace Cert.SoftTree.Ref

open Idealize.ShloMosaic Cert.ReferenceIdeal.Read

variable {F : FTy → Type} [FloatOps F] [Cert.KernelIdeal.Facts] [Cert.ReferenceIdeal.Facts]

set_option maxRecDepth 8192 in
/-- The last stage, the reference's result, is `routing` of the decision stage. -/
theorem routing_eq (x0 : FVec F Cert.ReferenceIdeal.S16384x2048 .f32) (x1 : FVec F Cert.ReferenceIdeal.S2048x1024 .f32)
    (x2 : FVec F Cert.ReferenceIdeal.S1024x1024 .f32) (x3 : FVec F Cert.ReferenceIdeal.S1024 .f32) :
    val_main_v67 (F := F) x0 x1 x2 x3 = Cert.SoftTree.routing (F := F) (val_main_v11 (F := F) x0 x1 x2 x3) := rfl

end Cert.SoftTree.Ref

end
-- ==== Proof.lean ====
/-
  A soft decision tree: the kernel against its jnp reference, equal over the extended reals.

  Both programs compute, for 16384 samples, the leaf probabilities of a depth-ten soft decision tree. Sample `i` selects
  1024 of its 2048 features by a product with a selection matrix, every inner node `j` scores the selected features
  against its weight row and adds its bias, and decides with the logistic function: the DECISION array
  `d[i, j] = logistic (∑ k, (∑ k₁, x[i,k₁] · mask[k₁,k]) · W[j,k] + b[j])` (Proof/Spec.lean). The ROUTING then multiplies,
  level by level, every path's probability by `d` or `1 - d` at the node it passes (Proof/Routing.lean), one function of
  `d` that both programs run with the same operations.

  The kernel computes `d` in one pallas_call over 32 blocks of 512 samples, with both matrix products on the matrix
  unit after narrowing their operands to bf16 and with the logistic function as one operation; the reference computes it
  by two whole matrix products and the quotient `1 / (1 + e^(-z))`. On the extended reals narrowing is the identity, a
  matrix product is the sum over the contracted axis however it is tiled, and the quotient is the logistic function at
  every extended real, so the two decision arrays are equal entry by entry (Proof/KernelBlock.lean, Proof/KernelArray.lean
  for the kernel; Proof/RefDecision.lean for the reference) with no appeal to the inputs being finite. Each program's
  result is the routing of its decision array (Proof/KernelRun.lean, Proof/RefRouting.lean).

  The kernel's frames are the generated frame certificates; the reference's frame is its generated run with the result
  dropped; the idealization rewrote nothing, so there is nothing to preserve.
-/
import proofs.«132945_j2963527434844_1_alg».proof.Defs
import proofs.«132945_j2963527434844_1_alg».proof.Proof.Gen.Kernel
import proofs.«132945_j2963527434844_1_alg».proof.Proof.Gen.Kernel.Skeleton
import proofs.«132945_j2963527434844_1_alg».proof.Proof.Gen.Kernel.Launch
import proofs.«132945_j2963527434844_1_alg».proof.Proof.Gen.Kernel.Points
import proofs.«132945_j2963527434844_1_alg».proof.Proof.Gen.Kernel.Frame
import proofs.«132945_j2963527434844_1_alg».proof.Proof.Gen.KernelIdeal
import proofs.«132945_j2963527434844_1_alg».proof.Proof.Gen.KernelIdeal.Skeleton
import proofs.«132945_j2963527434844_1_alg».proof.Proof.Gen.KernelIdeal.Launch
import proofs.«132945_j2963527434844_1_alg».proof.Proof.Gen.KernelIdeal.Points
import proofs.«132945_j2963527434844_1_alg».proof.Proof.Gen.KernelIdeal.Frame
import proofs.«132945_j2963527434844_1_alg».proof.Proof.Gen.ReferenceIdeal
import proofs.«132945_j2963527434844_1_alg».proof.Proof.Gen.ReferenceIdeal.Run
import proofs.«132945_j2963527434844_1_alg».proof.Proof.Gen.ReferenceIdeal.Read
import proofs.«132945_j2963527434844_1_alg».proof.Proof.Gen.Pre_finite_inputs
import proofs.«132945_j2963527434844_1_alg».proof.Proof.KernelRun
import proofs.«132945_j2963527434844_1_alg».proof.Proof.RefDecision
import proofs.«132945_j2963527434844_1_alg».proof.Proof.RefRouting
import Idealize.ShloMosaic.Adequacy
import Idealize.ShloMosaic.Init

noncomputable section

namespace Cert.Proof

open Idealize.ShloMosaic Idealize.SL.Sem

/-- The kernel as printed runs and keeps its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its generated run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the routing of the decision array of those
    arguments: the kernel by its run read through the region and the host tail, the reference by its run read stage by
    stage. -/
theorem algebraic : Cert.algebraic_KernelIdeal_ReferenceIdeal := by
  intro m ρ m' ρ' _ hagree
  refine ⟨_, Cert.SoftTree.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.SoftTree.Ref.routing_eq, Cert.SoftTree.Ref.decision_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
